-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S2x1048576 : Shape := ⟨2, ![2, 1048576]⟩
abbrev S64x64 : Shape := ⟨2, ![64, 64]⟩
abbrev S64 : Shape := ⟨1, ![64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S65536x64 .f32) (main_arg1 : IVec S2x1048576 32) (main_arg2 : FVec F S64x64 .f32) (main_arg3 : FVec F S64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S65536x64 : Shape := ⟨2, ![65536, 64]⟩
abbrev S2x1048576 : Shape := ⟨2, ![2, 1048576]⟩
abbrev S64x64 : Shape := ⟨2, ![64, 64]⟩
abbrev S64 : Shape := ⟨1, ![64]⟩
abbrev S1x1048576 : Shape := ⟨2, ![1, 1048576]⟩
abbrev S1048576 : Shape := ⟨1, ![1048576]⟩
abbrev S65536 : Shape := ⟨1, ![65536]⟩
abbrev S1114112 : Shape := ⟨1, ![1114112]⟩
abbrev S_ : Shape := ⟨0, ![]⟩
abbrev S1114112x1 : Shape := ⟨2, ![1114112, 1]⟩
abbrev S4096x64 : Shape := ⟨2, ![4096, 64]⟩
abbrev S1114112x64 : Shape := ⟨2, ![1114112, 64]⟩
abbrev S1x64 : Shape := ⟨2, ![1, 64]⟩

abbrev nBuf : Space → Nat
  | .hbm => 62
  | .vmem => 10
  | .smem => 0
  | _ => 0

abbrev bufTy : (tb : Table) → Fin (tcTables nBuf tb) → BufTy
  | .hbm, ⟨0, _⟩ => ⟨S65536x64, .f32⟩
  | .hbm, ⟨1, _⟩ => ⟨S2x1048576, .i32⟩
  | .hbm, ⟨2, _⟩ => ⟨S64x64, .f32⟩
  | .hbm, ⟨3, _⟩ => ⟨S64, .f32⟩
  | .hbm, ⟨4, _⟩ => ⟨S1x1048576, .i32⟩
  | .hbm, ⟨5, _⟩ => ⟨S1048576, .i32⟩
  | .hbm, ⟨6, _⟩ => ⟨S1x1048576, .i32⟩
  | .hbm, ⟨7, _⟩ => ⟨S1048576, .i32⟩
  | .hbm, ⟨8, _⟩ => ⟨S65536, .i32⟩
  | .hbm, ⟨9, _⟩ => ⟨S1114112, .i32⟩
  | .hbm, ⟨10, _⟩ => ⟨S1114112, .i32⟩
  | .hbm, ⟨11, _⟩ => ⟨S_, .f32⟩
  | .hbm, ⟨12, _⟩ => ⟨S1114112, .f32⟩
  | .hbm, ⟨13, _⟩ => ⟨S_, .f32⟩
  | .hbm, ⟨14, _⟩ => ⟨S65536, .f32⟩
  | .hbm, ⟨15, _⟩ => ⟨S1114112x1, .i32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536, .i1⟩
  | .hbm, ⟨20, _⟩ => ⟨S65536, .f32⟩
  | .hbm, ⟨21, _⟩ => ⟨S_, .f32⟩
  | .hbm, ⟨22, _⟩ => ⟨S_, .f32⟩
  | .hbm, ⟨23, _⟩ => ⟨S65536, .f32⟩
  | .hbm, ⟨24, _⟩ => ⟨S65536, .f32⟩
  | .hbm, ⟨25, _⟩ => ⟨S_, .i32⟩
  | .hbm, ⟨26, _⟩ => ⟨S1114112, .i32⟩
  | .hbm, ⟨27, _⟩ => ⟨S1114112, .i1⟩
  | .hbm, ⟨28, _⟩ => ⟨S_, .i32⟩
  | .hbm, ⟨29, _⟩ => ⟨S1114112, .i32⟩
  | .hbm, ⟨30, _⟩ => ⟨S1114112, .i32⟩
  | .hbm, ⟨31, _⟩ => ⟨S1114112, .i32⟩
  | .hbm, ⟨32, _⟩ => ⟨S1114112x1, .i32⟩
  | .hbm, ⟨33, _⟩ => ⟨S1114112, .f32⟩
  | .hbm, ⟨34, _⟩ => ⟨S_, .i32⟩
  | .hbm, ⟨35, _⟩ => ⟨S1114112, .i32⟩
  | .hbm, ⟨36, _⟩ => ⟨S1114112, .i1⟩
  | .hbm, ⟨37, _⟩ => ⟨S_, .i32⟩
  | .hbm, ⟨38, _⟩ => ⟨S1114112, .i32⟩
  | .hbm, ⟨39, _⟩ => ⟨S1114112, .i32⟩
  | .hbm, ⟨40, _⟩ => ⟨S1114112, .i32⟩
  | .hbm, ⟨41, _⟩ => ⟨S1114112x1, .i32⟩
  | .hbm, ⟨42, _⟩ => ⟨S1114112, .f32⟩
  | .hbm, ⟨43, _⟩ => ⟨S1114112, .f32⟩
  | .hbm, ⟨44, _⟩ => ⟨S65536x64, .f32⟩
  | .hbm, ⟨45, _⟩ => ⟨S_, .i32⟩
  | .hbm, ⟨46, _⟩ => ⟨S1114112, .i32⟩
  | .hbm, ⟨47, _⟩ => ⟨S1114112, .i1⟩
  | .hbm, ⟨48, _⟩ => ⟨S_, .i32⟩
  | .hbm, ⟨49, _⟩ => ⟨S1114112, .i32⟩
  | .hbm, ⟨50, _⟩ => ⟨S1114112, .i32⟩
  | .hbm, ⟨51, _⟩ => ⟨S1114112, .i32⟩
  | .hbm, ⟨52, _⟩ => ⟨S1114112x1, .i32⟩
  | .hbm, ⟨53, _⟩ => ⟨S1114112x64, .f32⟩
  | .hbm, ⟨54, _⟩ => ⟨S1114112x1, .f32⟩
  | .hbm, ⟨55, _⟩ => ⟨S1114112x64, .f32⟩
  | .hbm, ⟨56, _⟩ => ⟨S1114112x64, .f32⟩
  | .hbm, ⟨57, _⟩ => ⟨S_, .f32⟩
  | .hbm, ⟨58, _⟩ => ⟨S65536x64, .f32⟩
  | .hbm, ⟨59, _⟩ => ⟨S1114112x1, .i32⟩
  | .hbm, ⟨60, _⟩ => ⟨S65536x64, .f32⟩
  | .hbm, ⟨61, _⟩ => ⟨S65536x64, .f32⟩
  | .local _ .vmem, ⟨0, _⟩ => ⟨S4096x64, .f32⟩
  | .local _ .vmem, ⟨1, _⟩ => ⟨S4096x64, .f32⟩
  | .local _ .vmem, ⟨2, _⟩ => ⟨S64x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S64, .f32⟩
  | .local _ .vmem, ⟨8, _⟩ => ⟨S4096x64, .f32⟩
  | .local _ .vmem, ⟨9, _⟩ => ⟨S4096x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S65536_S1114112_d0 : Shape.Concatenates [S1048576, S65536] S1114112 0
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  shapeCasts_S4096x64_S4096x64 : S4096x64.ShapeCasts S4096x64
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S4096x64_S64x64_S4096x64_1_0_0_1_n_n_wf : DotDims.WF S4096x64 S64x64 S4096x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S65536x64.size a
  hwx0_2 : ∀ i : grid0.Coords, EltTy.bits .f32 = 32 ∨ (Rect.block (s := S65536x64) S4096x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S65536x64.size a
  hwx1_0 : ∀ i : grid1.Coords, EltTy.bits .f32 = 32 ∨ (Rect.block (s := S65536x64) S4096x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S65536x64.size a
  hwx1_2 : ∀ i : grid1.Coords, EltTy.bits .f32 = 32 ∨ (Rect.block (s := S65536x64) S4096x64.size (cc1_transform_2 i) (hinb1_2 i)).WholeWords (EltTy.packing .f32)

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x64 : Shape := ⟨2, ![65536, 64]⟩
abbrev S2x1048576 : Shape := ⟨2, ![2, 1048576]⟩
abbrev S64x64 : Shape := ⟨2, ![64, 64]⟩
abbrev S64 : Shape := ⟨1, ![64]⟩
abbrev S1x1048576 : Shape := ⟨2, ![1, 1048576]⟩
abbrev S1048576 : Shape := ⟨1, ![1048576]⟩
abbrev S65536 : Shape := ⟨1, ![65536]⟩
abbrev S1114112 : Shape := ⟨1, ![1114112]⟩
abbrev S_ : Shape := ⟨0, ![]⟩
abbrev S1114112x1 : Shape := ⟨2, ![1114112, 1]⟩
abbrev S1114112x64 : Shape := ⟨2, ![1114112, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S2x1048576, .i32⟩
  | .hbm, ⟨2, _⟩ => ⟨S64x64, .f32⟩
  | .hbm, ⟨3, _⟩ => ⟨S64, .f32⟩
  | .hbm, ⟨4, _⟩ => ⟨S1x1048576, .i32⟩
  | .hbm, ⟨5, _⟩ => ⟨S1048576, .i32⟩
  | .hbm, ⟨6, _⟩ => ⟨S1x1048576, .i32⟩
  | .hbm, ⟨7, _⟩ => ⟨S1048576, .i32⟩
  | .hbm, ⟨8, _⟩ => ⟨S65536, .i32⟩
  | .hbm, ⟨9, _⟩ => ⟨S1114112, .i32⟩
  | .hbm, ⟨10, _⟩ => ⟨S1114112, .i32⟩
  | .hbm, ⟨11, _⟩ => ⟨S_, .f32⟩
  | .hbm, ⟨12, _⟩ => ⟨S1114112, .f32⟩
  | .hbm, ⟨13, _⟩ => ⟨S_, .f32⟩
  | .hbm, ⟨14, _⟩ => ⟨S65536, .f32⟩
  | .hbm, ⟨15, _⟩ => ⟨S1114112x1, .i32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536, .i1⟩
  | .hbm, ⟨20, _⟩ => ⟨S65536, .f32⟩
  | .hbm, ⟨21, _⟩ => ⟨S_, .f32⟩
  | .hbm, ⟨22, _⟩ => ⟨S_, .f32⟩
  | .hbm, ⟨23, _⟩ => ⟨S65536, .f32⟩
  | .hbm, ⟨24, _⟩ => ⟨S65536, .f32⟩
  | .hbm, ⟨25, _⟩ => ⟨S_, .i32⟩
  | .hbm, ⟨26, _⟩ => ⟨S1114112, .i32⟩
  | .hbm, ⟨27, _⟩ => ⟨S1114112, .i1⟩
  | .hbm, ⟨28, _⟩ => ⟨S_, .i32⟩
  | .hbm, ⟨29, _⟩ => ⟨S1114112, .i32⟩
  | .hbm, ⟨30, _⟩ => ⟨S1114112, .i32⟩
  | .hbm, ⟨31, _⟩ => ⟨S1114112, .i32⟩
  | .hbm, ⟨32, _⟩ => ⟨S1114112x1, .i32⟩
  | .hbm, ⟨33, _⟩ => ⟨S1114112, .f32⟩
  | .hbm, ⟨34, _⟩ => ⟨S_, .i32⟩
  | .hbm, ⟨35, _⟩ => ⟨S1114112, .i32⟩
  | .hbm, ⟨36, _⟩ => ⟨S1114112, .i1⟩
  | .hbm, ⟨37, _⟩ => ⟨S_, .i32⟩
  | .hbm, ⟨38, _⟩ => ⟨S1114112, .i32⟩
  | .hbm, ⟨39, _⟩ => ⟨S1114112, .i32⟩
  | .hbm, ⟨40, _⟩ => ⟨S1114112, .i32⟩
  | .hbm, ⟨41, _⟩ => ⟨S1114112x1, .i32⟩
  | .hbm, ⟨42, _⟩ => ⟨S1114112, .f32⟩
  | .hbm, ⟨43, _⟩ => ⟨S1114112, .f32⟩
  | .hbm, ⟨44, _⟩ => ⟨S65536x64, .f32⟩
  | .hbm, ⟨45, _⟩ => ⟨S_, .i32⟩
  | .hbm, ⟨46, _⟩ => ⟨S1114112, .i32⟩
  | .hbm, ⟨47, _⟩ => ⟨S1114112, .i1⟩
  | .hbm, ⟨48, _⟩ => ⟨S_, .i32⟩
  | .hbm, ⟨49, _⟩ => ⟨S1114112, .i32⟩
  | .hbm, ⟨50, _⟩ => ⟨S1114112, .i32⟩
  | .hbm, ⟨51, _⟩ => ⟨S1114112, .i32⟩
  | .hbm, ⟨52, _⟩ => ⟨S1114112x1, .i32⟩
  | .hbm, ⟨53, _⟩ => ⟨S1114112x64, .f32⟩
  | .hbm, ⟨54, _⟩ => ⟨S1114112x1, .f32⟩
  | .hbm, ⟨55, _⟩ => ⟨S1114112x64, .f32⟩
  | .hbm, ⟨56, _⟩ => ⟨S1114112x64, .f32⟩
  | .hbm, ⟨57, _⟩ => ⟨S_, .f32⟩
  | .hbm, ⟨58, _⟩ => ⟨S65536x64, .f32⟩
  | .hbm, ⟨59, _⟩ => ⟨S1114112x1, .i32⟩
  | .hbm, ⟨60, _⟩ => ⟨S65536x64, .f32⟩
  | .hbm, ⟨61, _⟩ => ⟨S1x64, .f32⟩
  | .hbm, ⟨62, _⟩ => ⟨S65536x64, .f32⟩
  | .hbm, ⟨63, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S65536_S1114112_d0 : Shape.Concatenates [S1048576, S65536] S1114112 0
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S65536x64_S64x64_S65536x64_1_0_0_1_n_n_wf : DotDims.WF S65536x64 S64x64 S65536x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf

class Facts : Prop extends Facts₀ where

variable [Facts]
-- ==== Proof.MatmulValue.lean ====
/-
  The first pallas_call, read as a value at the ideal instance. Its body stores, at every grid point, the product of the
  point's 4096 rows of the left operand with the whole 64 × 64 right operand, accumulated into zero: at `Ideal` the
  change of format to bf16 is the identity and the product is the exact sum, so entry (p, q) of the stored block is
  `∑ k, x (p, k) · w (k, q)`. The sixteen row blocks tile the [65536, 64] result, hence the result array ends holding
  `∑ k, X (r, k) · W (k, q)` at every (r, q), whatever the arrays `X`, `W` the region finds.
-/
import proofs.«145079_j3994319585791_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.MatmulValue

open Cert.KernelIdeal Cert.KernelIdeal.Gen
open Idealize.ShloMosaic Idealize.ShloMosaic.TcCoe Idealize.SL.Sem Idealize.ShloMosaic.ValueIdx
open Idealize.ShloMosaic.Pipeline (Dat)

/-- Row `p` of a 4096-row block, column `k`. -/
abbrev bl (j : S4096x64.Idx) (k : Fin 64) : S4096x64.Idx := ix2 (⟨(j 0).val, (j 0).isLt⟩ : Fin 4096) k
/-- Row `k` of the right operand, the column of `j`. -/
abbrev br (j : S4096x64.Idx) (k : Fin 64) : S64x64.Idx := ix2 k (⟨(j 1).val, (j 1).isLt⟩ : Fin 64)
/-- Row of `i` in the whole left operand, column `k`. -/
abbrev al (i : S65536x64.Idx) (k : Fin 64) : S65536x64.Idx := ix2 (⟨(i 0).val, (i 0).isLt⟩ : Fin 65536) k
/-- Row `k` of the right operand, the column of `i`. -/
abbrev ar (i : S65536x64.Idx) (k : Fin 64) : S64x64.Idx := ix2 k (⟨(i 1).val, (i 1).isLt⟩ : Fin 64)

local notation "dotK" => dot_S4096x64_S64x64_S4096x64_1_0_0_1_n_n

theorem lhs_axis0 (j : S4096x64.Idx) (q : dot_S4096x64_S64x64_S4096x64_1_0_0_1_n_n.contr.Idx) :
    (dot_S4096x64_S64x64_S4096x64_1_0_0_1_n_n.lhsIdx j q 0).val = (j 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_axis1 (j : S4096x64.Idx) (q : dot_S4096x64_S64x64_S4096x64_1_0_0_1_n_n.contr.Idx) :
    (dot_S4096x64_S64x64_S4096x64_1_0_0_1_n_n.lhsIdx j q 1).val = (q ⟨0, by decide⟩).val :=
  dot_S4096x64_S64x64_S4096x64_1_0_0_1_n_n.lhsIdx_val_of_single rfl j q
theorem rhs_axis0 (j : S4096x64.Idx) (q : dot_S4096x64_S64x64_S4096x64_1_0_0_1_n_n.contr.Idx) :
    (dot_S4096x64_S64x64_S4096x64_1_0_0_1_n_n.rhsIdx j q 0).val = (q ⟨0, by decide⟩).val :=
  dot_S4096x64_S64x64_S4096x64_1_0_0_1_n_n.rhsIdx_val_of_single rfl j q
theorem rhs_axis1 (j : S4096x64.Idx) (q : dot_S4096x64_S64x64_S4096x64_1_0_0_1_n_n.contr.Idx) :
    (dot_S4096x64_S64x64_S4096x64_1_0_0_1_n_n.rhsIdx j q 1).val = (j 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The stored block at (p, q): the row of the left block times the column of the right operand. -/
theorem pay_apply (x0 : Vec Ideal S4096x64 .f32) (x1 : Vec Ideal S64x64 .f32) (j : S4096x64.Idx) :
    (k0_pay1 x0 x1 : S4096x64.Idx → EReal) j = ∑ k : Fin 64, (x0 (bl j k) : EReal) * (x1 (br j k) : EReal) := by
  unfold k0_pay1
  simp only [matmul]
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx j ((contrEquiv1 dot_S4096x64_S64x64_S4096x64_1_0_0_1_n_n 64 rfl rfl).symm k) = bl j k := funext fun a => Fin.ext (by
    match a with
    | ⟨0, _⟩ => exact lhs_axis0 _ _
    | ⟨1, _⟩ => exact (lhs_axis1 _ _).trans hk)
  have er : dot_S4096x64_S64x64_S4096x64_1_0_0_1_n_n.rhsIdx j ((contrEquiv1 dot_S4096x64_S64x64_S4096x64_1_0_0_1_n_n 64 rfl rfl).symm k) = br j k := funext fun a => Fin.ext (by
    match a with
    | ⟨0, _⟩ => exact (rhs_axis0 _ _).trans hk
    | ⟨1, _⟩ => exact rhs_axis1 _ _)
  rw [el, er]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The left and the right operand as the region finds them, at their literal types. -/
abbrev lhsArr (c : Dev nD) : FVec Ideal S65536x64 .f32 := V c main_arg0
abbrev rhsArr (c : Dev nD) : FVec Ideal S64x64 .f32 := V c main_arg2

/-- The product of the two arrays the region finds, index by index: what the result array ends holding. -/
abbrev prod (c : Dev nD) : FVec Ideal S65536x64 .f32 := fun i =>
  ∑ k : Fin 64, lhsArr V c (al i k) * rhsArr V c (ar i k)

/-- The printed index maps, decided over the sixteen grid points: point `t` reads and writes row block `t`, at column
    block 0, and reads the whole right operand. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero hz]
  simp only [View.ld_unit_zero (S := S4096x64) hz, View.ld_unit_zero (S := S64x64) hz]
  obtain ⟨e0, e1, e2, e3, e4, e5⟩ := idx_facts t
  funext j
  show (k0_pay1 (iblk0 V c 0 t) (iblk0 V c 1 t) : S4096x64.Idx → EReal) j = prod V c (((cfg0.win 2).blk t).view.emb j)
  refine (pay_apply (iblk0 V c 0 t) (iblk0 V c 1 t) j).trans ?_
  refine Finset.sum_congr rfl fun k _ => ?_
  have hj0 : (j 0).val < 4096 := (j 0).isLt
  have hj1 : (j 1).val < 64 := (j 1).isLt
  have h0 : (iblk0 V c 0 t : S4096x64.Idx → EReal) (bl j k) = lhsArr V c (al (((cfg0.win 2).blk t).view.emb j) k) := by
    show lhsArr V c (((cfg0.win 0).blk t).view.emb (bl j k)) = _
    congr 1
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 64 + 1 * k.val = k.val; omega
  have h1 : (iblk0 V c 1 t : S64x64.Idx → EReal) (br j k) = rhsArr V c (ar (((cfg0.win 2).blk t).view.emb j) k) := by
    show rhsArr V c (((cfg0.win 1).blk t).view.emb (br j k)) = _
    congr 1
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [h0, h1]

/-- An index of the result is in point `t`'s block iff each coordinate is in the block's range on its axis. -/
theorem mem_blk (t : Fin cfg0.N) (i : S65536x64.Idx) :
    i ∈ ((cfg0.win 2).blk t).view.set ↔ ∀ a : Fin 2, win0_2.index t a * S4096x64.size a ≤ (i a).val ∧ (i a).val < win0_2.index t a * S4096x64.size a + S4096x64.size a := by
  show i ∈ ((View.whole main_v30).slice (win0_2.rect t)).set ↔ _
  rw [View.set_slice_whole, Rect.mem_set_unit]
  exact Iff.rfl

/-- Row `r` lies in the block of point `r / 4096`: the sixteen blocks cover the result. -/
theorem cover (i : S65536x64.Idx) : ∃ t : Fin cfg0.N, (cfg0.win 2).flush t = true ∧ i ∈ ((cfg0.win 2).blk t).view.set := by
  have hi0 : (i 0).val < 65536 := (i 0).isLt
  have hi1 : (i 1).val < 64 := (i 1).isLt
  have hN : cfg0.N = 16 := N_0
  let t : Fin cfg0.N := ⟨(i 0).val / 4096, by rw [hN]; omega⟩
  obtain ⟨e0, e1, e2, e3, e4, e5⟩ := idx_facts t
  have ht : t.val = (i 0).val / 4096 := rfl
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 64 ≤ (i 1).val ∧ (i 1).val < win0_2.index t (1 : Fin 2) * 64 + 64; omega

/-- The result array after the region: the product of the arrays the region finds. -/
theorem final (c : Dev nD) : (dat0 V c).arrAt 2 cfg0.N = prod V c :=
  (dat0 V c).arrAt_eq_of_cover 2 (prod V c) (fun t _ => flushed_eq V c t) (cover)

end Cert.KernelIdeal.MatmulValue

end
-- ==== Proof.BiasValue.lean ====
/-
  The second pallas_call, read as a value at the ideal instance. At every grid point its body adds to the point's 4096 rows
  of the first operand the 64-entry second operand, laid as one row and repeated down the rows: entry (p, q) of the stored
  block is `y (p, q) + b q`. The sixteen row blocks tile the [65536, 64] result, hence the result array ends holding
  `Y (r, q) + B q` at every (r, q), whatever the arrays `Y`, `B` the region finds.
-/
import proofs.«145079_j3994319585791_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasValue

open Cert.KernelIdeal Cert.KernelIdeal.Gen
open Idealize.ShloMosaic Idealize.ShloMosaic.TcCoe Idealize.SL.Sem Idealize.ShloMosaic.ValueIdx
open Idealize.ShloMosaic.Pipeline (Dat)

/-- The column of a rank-2 index with 64 columns, as an index of the 64-entry vector. -/
abbrev colB (j : S4096x64.Idx) : S64.Idx := ix1 (⟨(j 1).val, (j 1).isLt⟩ : Fin 64)
abbrev colA (i : S65536x64.Idx) : S64.Idx := ix1 (⟨(i 1).val, (i 1).isLt⟩ : Fin 64)

/-- The stored block at (p, q): the first operand's entry plus the vector's entry `q`. -/
theorem pay_apply (v0 : Vec Ideal S64 .f32) (v3 : Vec Ideal S4096x64 .f32) (j : S4096x64.Idx) :
    (k1_pay1 v0 v3 : S4096x64.Idx → EReal) j = FloatOps.addf (F := Ideal) (φ := .f32) (v3 j : EReal) (v0 (colB j) : EReal) := by
  unfold k1_pay1
  show FloatOps.addf (F := Ideal) (φ := .f32) (shapeCast S4096x64 v3 shapeCasts_S4096x64_S4096x64 j)
      (broadcastTo S4096x64 (shapeCast S1x64 v0 shapeCasts_S64_S1x64) broadcasts_S1x64_S4096x64 j) = _
  rw [shapeCast_self]
  have e : j = ix2 (⟨(j 0).val, (j 0).isLt⟩ : Fin 4096) (⟨(j 1).val, (j 1).isLt⟩ : Fin 64) := by
    funext a; match a with | ⟨0, _⟩ => rfl | ⟨1, _⟩ => rfl
  have hb : broadcastTo S4096x64 (shapeCast S1x64 v0 shapeCasts_S64_S1x64) broadcasts_S1x64_S4096x64 j = v0 (colB j) := by
    rw [e]
    refine (broadcastTo_1b_ab_apply (shapeCast S1x64 v0 shapeCasts_S64_S1x64) broadcasts_S1x64_S4096x64 _ _).trans ?_
    exact shapeCast_a_1a_apply v0 shapeCasts_S64_S1x64 (0 : Fin 1) _
  rw [hb]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The first array plus the vector along the columns, index by index: what the result array ends holding. -/
abbrev inArr (c : Dev nD) : FVec Ideal S65536x64 .f32 := V c main_v43
abbrev vecArr (c : Dev nD) : FVec Ideal S64 .f32 := V c main_arg3
abbrev sum (c : Dev nD) : FVec Ideal S65536x64 .f32 := fun i =>
  FloatOps.addf (F := Ideal) (φ := .f32) (inArr V c i) (vecArr V c (colA i))

/-- The printed index maps, decided over the sixteen grid points: point `t` reads and writes row block `t`, at column
    block 0, and reads the whole vector. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point `t` writes back is block `t` of the sum. -/
theorem flushed_eq (c : Dev nD) (t : Fin cfg1.N) :
    (dat1 V c).flushed 2 t = ((cfg1.win 2).blk t).view.read (Elt Ideal) (sum V c) := by
  show (cfg1.win 2).cut (grid1.coords t) ((dat1 V c).after 2 t) = _
  rw [after1_2]
  unfold out1_2
  rw [View.canon_unit_zero hz2]
  simp only [View.ld_unit_zero (S := S4096x64) hz2, View.ld_unit_zero (S := S64) hz1]
  obtain ⟨e0, e1, e2, e3, e4⟩ := idx_facts t
  funext j
  have hj0 : (j 0).val < 4096 := (j 0).isLt
  have hj1 : (j 1).val < 64 := (j 1).isLt
  show (k1_pay1 (iblk1 V c 1 t) (iblk1 V c 0 t) : S4096x64.Idx → EReal) j = sum V c (((cfg1.win 2).blk t).view.emb j)
  refine (pay_apply (iblk1 V c 1 t) (iblk1 V c 0 t) j).trans ?_
  have h0 : (iblk1 V c 0 t : S4096x64.Idx → EReal) j = inArr V c (((cfg1.win 2).blk t).view.emb j) := by
    show inArr V c (((cfg1.win 0).blk t).view.emb j) = _
    refine congrArg (inArr V c) (funext fun a => Fin.ext ?_)
    match a with
    | ⟨0, _⟩ => show win1_0.index t (0 : Fin 2) * 4096 + 1 * (j 0).val = win1_2.index t (0 : Fin 2) * 4096 + 1 * (j 0).val; omega
    | ⟨1, _⟩ => show win1_0.index t (1 : Fin 2) * 64 + 1 * (j 1).val = win1_2.index t (1 : Fin 2) * 64 + 1 * (j 1).val; omega
  have h1 : (iblk1 V c 1 t : S64.Idx → EReal) (colB j) = vecArr V c (colA (((cfg1.win 2).blk t).view.emb j)) := by
    show vecArr V c (((cfg1.win 1).blk t).view.emb (colB j)) = _
    refine congrArg (vecArr V c) (funext fun a => Fin.ext ?_)
    match a with
    | ⟨0, _⟩ => show win1_1.index t (0 : Fin 1) * 64 + 1 * (j 1).val = win1_2.index t (1 : Fin 2) * 64 + 1 * (j 1).val; omega
  rw [h0, h1]

/-- An index of the result is in point `t`'s block iff each coordinate is in the block's range on its axis. -/
theorem mem_blk (t : Fin cfg1.N) (i : S65536x64.Idx) :
    i ∈ ((cfg1.win 2).blk t).view.set ↔ ∀ a : Fin 2, win1_2.index t a * S4096x64.size a ≤ (i a).val ∧ (i a).val < win1_2.index t a * S4096x64.size a + S4096x64.size a := by
  show i ∈ ((View.whole main_v44).slice (win1_2.rect t)).set ↔ _
  rw [View.set_slice_whole, Rect.mem_set_unit]
  exact Iff.rfl

/-- Row `r` lies in the block of point `r / 4096`: the sixteen blocks cover the result. -/
theorem cover (i : S65536x64.Idx) : ∃ t : Fin cfg1.N, (cfg1.win 2).flush t = true ∧ i ∈ ((cfg1.win 2).blk t).view.set := by
  have hi0 : (i 0).val < 65536 := (i 0).isLt
  have hi1 : (i 1).val < 64 := (i 1).isLt
  have hN : cfg1.N = 16 := N_1
  let t : Fin cfg1.N := ⟨(i 0).val / 4096, by rw [hN]; omega⟩
  obtain ⟨e0, e1, e2, e3, e4⟩ := idx_facts t
  have ht : t.val = (i 0).val / 4096 := rfl
  refine ⟨t, flush1_2 t, ?_⟩
  rw [mem_blk]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 64 ≤ (i 1).val ∧ (i 1).val < win1_2.index t (1 : Fin 2) * 64 + 64; omega

/-- The result array after the region: the first array plus the vector along the columns. -/
theorem final (c : Dev nD) : (dat1 V c).arrAt 2 cfg1.N = sum V c :=
  (dat1 V c).arrAt_eq_of_cover 2 (sum V c) (fun t _ => flushed_eq V c t) (cover)

end Cert.KernelIdeal.BiasValue

end
-- ==== Proof.HostStages.lean ====
/-
  The host operations of the kernel's program, read as values. Between the launch and the first pallas_call the program
  builds, from the edge list alone, the source and target index vectors with the self loops appended and the per-edge
  normalisation `deg^{-1/2}[src] · deg^{-1/2}[dst]`; between the two pallas_calls it gathers the rows of the product at the
  sources, scales them and adds them up at the targets. These are, operation for operation, the reference's own host
  operations, so each buffer is stated as the reference's stage of the same name (`val_main_vN`), the product entering as
  a hypothesis: nothing of a gather or a scatter-add is opened.
-/
import proofs.«145079_j3994319585791_1_alg».proof.Proof.Gen.KernelIdeal.Frame
import proofs.«145079_j3994319585791_1_alg».proof.Proof.RefRead
import Idealize.ShloMosaic.Lib.StableHlo.Run

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (m : (ℓ : Loc nD τ sig) → Buf (Elt F) ℓ) (ρ : Dev nD → PrngReg)

/-- The source indices with the self loops appended, at the first pallas_call's entry. -/
theorem W3_v5 (c : Dev nD) :
    W3 m ρ c (Proc.devRef .tc main_v5) = val_main_v5 (F := F) (m ((c : Thread nD τ).loc main_arg1)) := by
  show after hostOps0_2 (after hostOps0_1 (after hostOps0 (W0 m ρ c))) (Proc.devRef .tc main_v5) = _
  after_results_simp
  after_results_rest
  rfl

/-- The target indices with the self loops appended, at the first pallas_call's entry. -/
theorem W3_v6 (c : Dev nD) :
    W3 m ρ c (Proc.devRef .tc main_v6) = val_main_v6 (F := F) (m ((c : Thread nD τ).loc main_arg1)) := by
  show after hostOps0_2 (after hostOps0_1 (after hostOps0 (W0 m ρ c))) (Proc.devRef .tc main_v6) = _
  after_results_simp
  after_results_rest
  rfl

/-- The per-edge normalisation, at the first pallas_call's entry. -/
theorem W3_v29 (c : Dev nD) :
    W3 m ρ c (Proc.devRef .tc main_v29) = val_main_v29 (F := F) (m ((c : Thread nD τ).loc main_arg1)) := by
  show after hostOps0_2 (after hostOps0_1 (after hostOps0 (W0 m ρ c))) (Proc.devRef .tc main_v29) = _
  after_results_simp
  after_results_rest
  rfl

/-- The argument arrays are as launched at the first pallas_call's entry. -/
theorem W3_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  after_results_simp
theorem W3_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  after_results_simp
theorem W3_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  after_results_simp

/-- The first pallas_call writes its result buffer only: the index vectors, the normalisation and the last argument are
    at its exit what they were at its entry. -/
theorem W4_v5 (c : Dev nD) : W4 m ρ c (Proc.devRef .tc main_v5) = val_main_v5 (F := F) (m ((c : Thread nD τ).loc main_arg1)) :=
  (W4_of_ne m ρ c main_v5 (by decide)).trans (W3_v5 m ρ c)
theorem W4_v6 (c : Dev nD) : W4 m ρ c (Proc.devRef .tc main_v6) = val_main_v6 (F := F) (m ((c : Thread nD τ).loc main_arg1)) :=
  (W4_of_ne m ρ c main_v6 (by decide)).trans (W3_v6 m ρ c)
theorem W4_v29 (c : Dev nD) : W4 m ρ c (Proc.devRef .tc main_v29) = val_main_v29 (F := F) (m ((c : Thread nD τ).loc main_arg1)) :=
  (W4_of_ne m ρ c main_v29 (by decide)).trans (W3_v29 m ρ c)
theorem W4_arg3 (c : Dev nD) : W4 m ρ c (Proc.devRef .tc main_arg3) = m ((c : Thread nD τ).loc main_arg3) :=
  (W4_of_ne m ρ c main_arg3 (by decide)).trans (W3_arg3 m ρ c)

/-- The second pallas_call's vector operand is the last argument as launched. -/
theorem W5_arg3 (c : Dev nD) : W5 m ρ c (Proc.devRef .tc main_arg3) = m ((c : Thread nD τ).loc main_arg3) := by
  show after hostOps1 (W4 m ρ c) (Proc.devRef .tc main_arg3) = _
  after_results_simp
  exact W4_arg3 m ρ c

/-- The second pallas_call's array operand: if the first pallas_call left the reference's product in its result buffer,
    the gather, the scaling and the scatter-add between the two calls leave the reference's aggregate. -/
theorem W5_v43 (c : Dev nD)
    (h30 : W4 m ρ c (Proc.devRef .tc main_v30) = val_main_v30 (F := F) (m ((c : Thread nD τ).loc main_arg0)) (m ((c : Thread nD τ).loc main_arg2))) :
    W5 m ρ c (Proc.devRef .tc main_v43) = val_main_v43 (F := F) (m ((c : Thread nD τ).loc main_arg0)) (m ((c : Thread nD τ).loc main_arg1)) (m ((c : Thread nD τ).loc main_arg2)) := by
  show after hostOps1 (W4 m ρ c) (Proc.devRef .tc main_v43) = _
  after_results_simp
  rw [h30, W4_v5 m ρ c, W4_v6 m ρ c, W4_v29 m ρ c]
  rfl

end Cert.KernelIdeal.HostStages

end
-- ==== Proof.Bridge.lean ====
/-
  The two programs compute one function. The kernel's program ends with its result buffer at
  `A (r, q) + b q`, where `A` is what the gather, scaling and scatter-add make of the first pallas_call's product
  `∑ k, x (r, k) · w (k, q)`; the reference ends at the same aggregate of its own `dot_general`, which at the ideal
  instance is that same sum, plus `b` broadcast along the rows. Only commutativity-free facts are used: the two sums
  have the same terms in the same index set, so no finiteness of the inputs is needed.
-/
import proofs.«145079_j3994319585791_1_alg».proof.Proof.KernelRun
import proofs.«145079_j3994319585791_1_alg».proof.Proof.MatmulValue
import proofs.«145079_j3994319585791_1_alg».proof.Proof.BiasValue
import proofs.«145079_j3994319585791_1_alg».proof.Proof.HostStages
import proofs.«145079_j3994319585791_1_alg».proof.Proof.RefRead

set_option maxRecDepth 16384

noncomputable section

namespace Cert.Bridge

open Idealize.ShloMosaic Idealize.ShloMosaic.TcCoe Idealize.SL.Sem Idealize.ShloMosaic.ValueIdx
open Cert.ReferenceIdeal.ReadP

/-- The common result: the reference's aggregate of its product, plus the bias along the columns. -/
abbrev out (x : FVec Ideal Cert.ReferenceIdeal.S65536x64 .f32) (e : IVec Cert.ReferenceIdeal.S2x1048576 32)
    (w : FVec Ideal Cert.ReferenceIdeal.S64x64 .f32) (b : FVec Ideal Cert.ReferenceIdeal.S64 .f32) :
    FVec Ideal Cert.ReferenceIdeal.S65536x64 .f32 := fun i =>
  FloatOps.addf (F := Ideal) (φ := .f32) (val_main_v43 (F := Ideal) x e w i) (b (ix1 (⟨(i 1).val, (i 1).isLt⟩ : Fin 64)))

/-- The reference's last stage is `out`: the bias, laid as a row and repeated down the rows, read at (r, q) is `b q`. -/
theorem ref_out (x : FVec Ideal Cert.ReferenceIdeal.S65536x64 .f32) (e : IVec Cert.ReferenceIdeal.S2x1048576 32)
    (w : FVec Ideal Cert.ReferenceIdeal.S64x64 .f32) (b : FVec Ideal Cert.ReferenceIdeal.S64 .f32) :
    val_main_v46 (F := Ideal) x e w b = out x e w b := by
  funext i
  rw [val_main_v46_apply, val_main_v45_apply, val_main_v44_apply]
  show FloatOps.addf _ (b _) = FloatOps.addf _ (b _)
  congr 2
  funext a
  match a with
  | ⟨0, _⟩ => rfl

end Cert.Bridge

namespace Cert.KernelIdeal.Result

open Cert.KernelIdeal Cert.KernelIdeal.Gen
open Idealize.ShloMosaic Idealize.ShloMosaic.TcCoe Idealize.SL.Sem Idealize.ShloMosaic.ValueIdx
open Cert.ReferenceIdeal.ReadP

variable (m : (ℓ : Loc nD τ sig) → Buf (Elt Ideal) ℓ) (ρ : Dev nD → PrngReg)

/-- The first pallas_call's product of the arrays it finds is the reference's `dot_general` of the arguments: at the
    ideal instance both are `∑ k, x (r, k) · w (k, q)`, and the arrays it finds are the arguments as launched. -/
theorem prod_eq (c : Dev nD) :
    MatmulValue.prod (V3 m ρ) c = val_main_v30 (F := Ideal) (m ((c : Thread nD τ).loc main_arg0)) (m ((c : Thread nD τ).loc main_arg2)) := by
  funext i
  rw [val_main_v30_apply]
  have ea : MatmulValue.lhsArr (V3 m ρ) c = m ((c : Thread nD τ).loc main_arg0) := HostStages.W3_arg0 m ρ c
  have eb : MatmulValue.rhsArr (V3 m ρ) c = m ((c : Thread nD τ).loc main_arg2) := HostStages.W3_arg2 m ρ c
  show ∑ k : Fin 64, MatmulValue.lhsArr (V3 m ρ) c (MatmulValue.al i k) * MatmulValue.rhsArr (V3 m ρ) c (MatmulValue.ar i k) = _
  rw [ea, eb]
  refine Finset.sum_congr rfl fun k _ => ?_
  have il : MatmulValue.al i k = lidx_main_v30 i k := funext fun a => by match a with | ⟨0, _⟩ => rfl | ⟨1, _⟩ => rfl
  have ir : MatmulValue.ar i k = ridx_main_v30 i k := funext fun a => by match a with | ⟨0, _⟩ => rfl | ⟨1, _⟩ => rfl
  rw [il, ir]

/-- The first pallas_call leaves the reference's product in its result buffer. -/
theorem W4_v30 (c : Dev nD) :
    W4 m ρ c (Proc.devRef .tc main_v30) = val_main_v30 (F := Ideal) (m ((c : Thread nD τ).loc main_arg0)) (m ((c : Thread nD τ).loc main_arg2)) :=
  ((W4_arr m ρ c 2).trans (MatmulValue.final (V3 m ρ) c)).trans (prod_eq m ρ c)

/-- The kernel's program ends with its result buffer at the common result of the arguments. -/
theorem W6_v44 (c : Dev nD) :
    W6 m ρ c (Proc.devRef .tc main_v44) = Cert.Bridge.out (m ((c : Thread nD τ).loc main_arg0)) (m ((c : Thread nD τ).loc main_arg1)) (m ((c : Thread nD τ).loc main_arg2)) (m ((c : Thread nD τ).loc main_arg3)) := by
  refine ((W6_arr m ρ c 2).trans (BiasValue.final (V5 m ρ) c)).trans ?_
  have ea : BiasValue.inArr (V5 m ρ) c = val_main_v43 (F := Ideal) (m ((c : Thread nD τ).loc main_arg0)) (m ((c : Thread nD τ).loc main_arg1)) (m ((c : Thread nD τ).loc main_arg2)) :=
    HostStages.W5_v43 m ρ c (W4_v30 m ρ c)
  have eb : BiasValue.vecArr (V5 m ρ) c = m ((c : Thread nD τ).loc main_arg3) := HostStages.W5_arg3 m ρ c
  funext i
  show FloatOps.addf (F := Ideal) (φ := .f32) (BiasValue.inArr (V5 m ρ) c i) (BiasValue.vecArr (V5 m ρ) c (BiasValue.colA i)) = _
  rw [ea, eb]

/-- The kernel's run, read: the result buffer at the common result, the arguments unchanged. -/
theorem run : θ_run defs (onTc (τ := τ) (main (F := Ideal))) ⟨m, fun _ => 0, ρ⟩ (fun r => ∀ c : Dev nD,
      r.2.mem ((c.tc : Thread nD τ).loc main_v44) = Cert.Bridge.out (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (W6_v44 m ρ c), (h c).2⟩) (Cert.KernelIdeal.GenRun.run (F := Ideal) m ρ)

end Cert.KernelIdeal.Result

end
-- ==== Proof.lean ====
/-
  The certificate of the GCN layer `out_i = b + ∑_{j ∈ N(i) ∪ {i}} (deg_i deg_j)^{-1/2} · (x_j W)`: a kernel program that
  computes the dense product `x W` and the final bias addition in two pallas_calls, with the degree normalisation, the gather
  of the product's rows and the scatter-add in between left to host operations, against a reference that does all of it in
  host operations.

  The mathematics. At the ideal instance a change of float format is the identity and a matrix product is the exact sum
  `∑ k, x (r, k) · w (k, q)`, for the kernel's blockwise product (sixteen row blocks of 4096 rows, which tile the 65536 rows) as
  for the reference's `dot_general`: the same terms over the same index set, so the two products are equal with no appeal to
  finiteness. The host operations between the two pallas_calls are the reference's own, operation for operation, applied to
  equal products and to the same edge list, so they leave equal aggregates; nothing of a gather or a scatter-add is opened.
  The kernel's bias addition, blockwise `y (p, q) + b q` with `b` laid as one row and repeated down the rows, is the
  reference's `y + broadcast b` index by index.

  The frames: the kernel program's two are the launch of its two pipelines over its host stretches; the reference's is its
  run with the result dropped. The idealization rewrote nothing, so what it preserves is trivially true.
-/
import proofs.«145079_j3994319585791_1_alg».proof.Defs
import proofs.«145079_j3994319585791_1_alg».proof.Proof.Gen.Kernel
import proofs.«145079_j3994319585791_1_alg».proof.Proof.Gen.Kernel.Frame
import proofs.«145079_j3994319585791_1_alg».proof.Proof.Gen.KernelIdeal
import proofs.«145079_j3994319585791_1_alg».proof.Proof.Gen.KernelIdeal.Frame
import proofs.«145079_j3994319585791_1_alg».proof.Proof.Gen.ReferenceIdeal
import proofs.«145079_j3994319585791_1_alg».proof.Proof.Gen.Pre_finite_inputs
import proofs.«145079_j3994319585791_1_alg».proof.Proof.RefRun
import proofs.«145079_j3994319585791_1_alg».proof.Proof.RefRead
import proofs.«145079_j3994319585791_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with their result buffers at one function of the
    arguments: the aggregate of the exact product, plus the bias along the columns. -/
theorem algebraic : Cert.algebraic_KernelIdeal_ReferenceIdeal := by
  intro m ρ m' ρ' _ hagree
  refine ⟨fun c => Cert.Bridge.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3⟩ := hagree c
  rw [Cert.ReferenceIdeal.ReadP.val_main_v46_eq, h0, h1, h2, h3]
  exact Cert.Bridge.ref_out _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
